-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S_ : Shape := ⟨0, ![]⟩
abbrev S16x4x514x514 : Shape := ⟨4, ![16, 4, 514, 514]⟩
abbrev S16x3x512x512 : Shape := ⟨4, ![16, 3, 512, 512]⟩
abbrev S1x4x514x514 : Shape := ⟨4, ![1, 4, 514, 514]⟩
abbrev S1x3x512x512 : Shape := ⟨4, ![1, 3, 512, 512]⟩
abbrev S1x1x512x512 : Shape := ⟨4, ![1, 1, 512, 512]⟩

abbrev nBuf : Space → Nat
  | .hbm => 5
  | .vmem => 4
  | .smem => 0
  | _ => 0

abbrev bufTy : (tb : Table) → Fin (tcTables nBuf tb) → BufTy
  | .hbm, ⟨0, _⟩ => ⟨S16x4x512x512, .f32⟩
  | .hbm, ⟨1, _⟩ => ⟨S_, .i32⟩
  | .hbm, ⟨2, _⟩ => ⟨S_, .f32⟩
  | .hbm, ⟨3, _⟩ => ⟨S16x4x514x514, .f32⟩
  | .hbm, ⟨4, _⟩ => ⟨S16x3x512x512, .f32⟩
  | .local _ .vmem, ⟨0, _⟩ => ⟨S1x4x514x514, .f32⟩
  | .local _ .vmem, ⟨1, _⟩ => ⟨S1x4x514x514, .f32⟩
  | .local _ .vmem, ⟨2, _⟩ => ⟨S1x3x512x512, .f32⟩
  | .local _ .vmem, ⟨3, _⟩ => ⟨S1x3x512x512, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x4x512x512_S16x4x514x514_000_000_110_110 : S16x4x512x512.Pads (![0, 0, 1, 1] : Fin 4 → Nat) ![0, 0, 1, 1] ![0, 0, 0, 0] S16x4x514x514
  h_S_ : 0 < S_.numel
  inb_S1x4x514x514_S1x3x512x512_0_0_0_0 : ∀ a, (![0, 0, 0, 0] : Fin 4 → Nat) a + S1x3x512x512.size a ≤ S1x4x514x514.size a
  h_S1x3x512x512 : 0 < S1x3x512x512.numel
  shapeCasts_S1x3x512x512_S1x3x512x512 : S1x3x512x512.ShapeCasts S1x3x512x512
  inb_S1x4x514x514_S1x1x512x512_0_3_0_0 : ∀ a, (![0, 3, 0, 0] : Fin 4 → Nat) a + S1x1x512x512.size a ≤ S1x4x514x514.size a
  h_S1x1x512x512 : 0 < S1x1x512x512.numel
  shapeCasts_S1x1x512x512_S1x1x512x512 : S1x1x512x512.ShapeCasts S1x1x512x512
  broadcasts_S1x1x512x512_S1x3x512x512 : S1x1x512x512.Broadcasts S1x3x512x512
  inb_S1x4x514x514_S1x3x512x512_0_0_0_1 : ∀ a, (![0, 0, 0, 1] : Fin 4 → Nat) a + S1x3x512x512.size a ≤ S1x4x514x514.size a
  inb_S1x4x514x514_S1x1x512x512_0_3_0_1 : ∀ a, (![0, 3, 0, 1] : Fin 4 → Nat) a + S1x1x512x512.size a ≤ S1x4x514x514.size a
  inb_S1x4x514x514_S1x3x512x512_0_0_0_2 : ∀ a, (![0, 0, 0, 2] : Fin 4 → Nat) a + S1x3x512x512.size a ≤ S1x4x514x514.size a
  inb_S1x4x514x514_S1x1x512x512_0_3_0_2 : ∀ a, (![0, 3, 0, 2] : Fin 4 → Nat) a + S1x1x512x512.size a ≤ S1x4x514x514.size a
  inb_S1x4x514x514_S1x3x512x512_0_0_1_0 : ∀ a, (![0, 0, 1, 0] : Fin 4 → Nat) a + S1x3x512x512.size a ≤ S1x4x514x514.size a
  inb_S1x4x514x514_S1x1x512x512_0_3_1_0 : ∀ a, (![0, 3, 1, 0] : Fin 4 → Nat) a + S1x1x512x512.size a ≤ S1x4x514x514.size a
  inb_S1x4x514x514_S1x3x512x512_0_0_1_1 : ∀ a, (![0, 0, 1, 1] : Fin 4 → Nat) a + S1x3x512x512.size a ≤ S1x4x514x514.size a
  inb_S1x4x514x514_S1x1x512x512_0_3_1_1 : ∀ a, (![0, 3, 1, 1] : Fin 4 → Nat) a + S1x1x512x512.size a ≤ S1x4x514x514.size a
  inb_S1x4x514x514_S1x3x512x512_0_0_1_2 : ∀ a, (![0, 0, 1, 2] : Fin 4 → Nat) a + S1x3x512x512.size a ≤ S1x4x514x514.size a
  inb_S1x4x514x514_S1x1x512x512_0_3_1_2 : ∀ a, (![0, 3, 1, 2] : Fin 4 → Nat) a + S1x1x512x512.size a ≤ S1x4x514x514.size a
  inb_S1x4x514x514_S1x3x512x512_0_0_2_0 : ∀ a, (![0, 0, 2, 0] : Fin 4 → Nat) a + S1x3x512x512.size a ≤ S1x4x514x514.size a
  inb_S1x4x514x514_S1x1x512x512_0_3_2_0 : ∀ a, (![0, 3, 2, 0] : Fin 4 → Nat) a + S1x1x512x512.size a ≤ S1x4x514x514.size a
  inb_S1x4x514x514_S1x3x512x512_0_0_2_1 : ∀ a, (![0, 0, 2, 1] : Fin 4 → Nat) a + S1x3x512x512.size a ≤ S1x4x514x514.size a
  inb_S1x4x514x514_S1x1x512x512_0_3_2_1 : ∀ a, (![0, 3, 2, 1] : Fin 4 → Nat) a + S1x1x512x512.size a ≤ S1x4x514x514.size a
  inb_S1x4x514x514_S1x3x512x512_0_0_2_2 : ∀ a, (![0, 0, 2, 2] : Fin 4 → Nat) a + S1x3x512x512.size a ≤ S1x4x514x514.size a
  inb_S1x4x514x514_S1x1x512x512_0_3_2_2 : ∀ a, (![0, 3, 2, 2] : Fin 4 → Nat) a + S1x1x512x512.size a ≤ S1x4x514x514.size a
  inb_S1x3x512x512_S1x3x512x512_0_0_0_0 : ∀ a, (![0, 0, 0, 0] : Fin 4 → Nat) a + S1x3x512x512.size a ≤ S1x3x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x514x514.size a ≤ S16x4x514x514.size a
  hwx0_0 : ∀ i : grid0.Coords, EltTy.bits .f32 = 32 ∨ (Rect.block (s := S16x4x514x514) S1x4x514x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)

variable [Facts₀]

abbrev win0_0 : Pipeline.Window sig grid0 :=
  Pipeline.Window.ofSpec (Memref.whole main_v0) S1x4x514x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S_ : Shape := ⟨0, ![]⟩
abbrev S16x4x514x514 : Shape := ⟨4, ![16, 4, 514, 514]⟩
abbrev S16x3x514x514 : Shape := ⟨4, ![16, 3, 514, 514]⟩
abbrev S16x1x514x514 : Shape := ⟨4, ![16, 1, 514, 514]⟩
abbrev S16x3x512x512 : Shape := ⟨4, ![16, 3, 512, 512]⟩
abbrev S16x1x512x512 : Shape := ⟨4, ![16, 1, 512, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S_, .i32⟩
  | .hbm, ⟨2, _⟩ => ⟨S_, .f32⟩
  | .hbm, ⟨3, _⟩ => ⟨S16x4x514x514, .f32⟩
  | .hbm, ⟨4, _⟩ => ⟨S16x3x514x514, .f32⟩
  | .hbm, ⟨5, _⟩ => ⟨S16x1x514x514, .f32⟩
  | .hbm, ⟨6, _⟩ => ⟨S_, .f32⟩
  | .hbm, ⟨7, _⟩ => ⟨S16x3x512x512, .f32⟩
  | .hbm, ⟨8, _⟩ => ⟨S16x3x512x512, .f32⟩
  | .hbm, ⟨9, _⟩ => ⟨S16x1x512x512, .f32⟩
  | .hbm, ⟨10, _⟩ => ⟨S16x3x512x512, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S16x1x512x512, .f32⟩
  | .hbm, ⟨15, _⟩ => ⟨S16x3x512x512, .f32⟩
  | .hbm, ⟨16, _⟩ => ⟨S16x3x512x512, .f32⟩
  | .hbm, ⟨17, _⟩ => ⟨S16x3x512x512, .f32⟩
  | .hbm, ⟨18, _⟩ => ⟨S16x3x512x512, .f32⟩
  | .hbm, ⟨19, _⟩ => ⟨S16x1x512x512, .f32⟩
  | .hbm, ⟨20, _⟩ => ⟨S16x3x512x512, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S16x1x512x512, .f32⟩
  | .hbm, ⟨25, _⟩ => ⟨S16x3x512x512, .f32⟩
  | .hbm, ⟨26, _⟩ => ⟨S16x3x512x512, .f32⟩
  | .hbm, ⟨27, _⟩ => ⟨S16x3x512x512, .f32⟩
  | .hbm, ⟨28, _⟩ => ⟨S16x3x512x512, .f32⟩
  | .hbm, ⟨29, _⟩ => ⟨S16x1x512x512, .f32⟩
  | .hbm, ⟨30, _⟩ => ⟨S16x3x512x512, .f32⟩
  | .hbm, ⟨31, _⟩ => ⟨S16x3x512x512, .f32⟩
  | .hbm, ⟨32, _⟩ => ⟨S16x3x512x512, .f32⟩
  | .hbm, ⟨33, _⟩ => ⟨S16x3x512x512, .f32⟩
  | .hbm, ⟨34, _⟩ => ⟨S16x1x512x512, .f32⟩
  | .hbm, ⟨35, _⟩ => ⟨S16x3x512x512, .f32⟩
  | .hbm, ⟨36, _⟩ => ⟨S16x3x512x512, .f32⟩
  | .hbm, ⟨37, _⟩ => ⟨S16x3x512x512, .f32⟩
  | .hbm, ⟨38, _⟩ => ⟨S16x3x512x512, .f32⟩
  | .hbm, ⟨39, _⟩ => ⟨S16x1x512x512, .f32⟩
  | .hbm, ⟨40, _⟩ => ⟨S16x3x512x512, .f32⟩
  | .hbm, ⟨41, _⟩ => ⟨S16x3x512x512, .f32⟩
  | .hbm, ⟨42, _⟩ => ⟨S16x3x512x512, .f32⟩
  | .hbm, ⟨43, _⟩ => ⟨S16x3x512x512, .f32⟩
  | .hbm, ⟨44, _⟩ => ⟨S16x1x512x512, .f32⟩
  | .hbm, ⟨45, _⟩ => ⟨S16x3x512x512, .f32⟩
  | .hbm, ⟨46, _⟩ => ⟨S16x3x512x512, .f32⟩
  | .hbm, ⟨47, _⟩ => ⟨S16x3x512x512, .f32⟩
  | .hbm, ⟨48, _⟩ => ⟨S16x3x512x512, .f32⟩
  | .hbm, ⟨49, _⟩ => ⟨S16x1x512x512, .f32⟩
  | .hbm, ⟨50, _⟩ => ⟨S16x3x512x512, .f32⟩
  | .hbm, ⟨51, _⟩ => ⟨S16x3x512x512, .f32⟩
  | .hbm, ⟨52, _⟩ => ⟨S16x3x512x512, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩

abbrev nD : Nat := 1
abbrev τ : Topo := Topo.v7x

variable {F : FTy → Type} [FloatOps F]

class Facts₀ : Prop where
  pads_S16x4x512x512_S16x4x514x514_000_000_110_110 : S16x4x512x512.Pads (![0, 0, 1, 1] : Fin 4 → Nat) ![0, 0, 1, 1] ![0, 0, 0, 0] S16x4x514x514
  h_S_ : 0 < S_.numel
  slices_S16x4x514x514_S16x3x514x514_0_0_0_0 : S16x4x514x514.Slices ![0, 0, 0, 0] S16x3x514x514
  slices_S16x4x514x514_S16x1x514x514_0_3_0_0 : S16x4x514x514.Slices ![0, 3, 0, 0] S16x1x514x514
  bcast_S_S16x3x512x512 : S_.BroadcastsInDim S16x3x512x512 (![] : Fin 0 → Fin S16x3x512x512.rank)
  slices_S16x3x514x514_S16x3x512x512_0_0_0_0 : S16x3x514x514.Slices ![0, 0, 0, 0] S16x3x512x512
  slices_S16x1x514x514_S16x1x512x512_0_0_0_0 : S16x1x514x514.Slices ![0, 0, 0, 0] S16x1x512x512
  bcast_S16x1x512x512_S16x3x512x512_0_1_2_3 : S16x1x512x512.BroadcastsInDim S16x3x512x512 (![0, 1, 2, 3] : Fin 4 → Fin S16x3x512x512.rank)
  slices_S16x3x514x514_S16x3x512x512_0_0_0_1 : S16x3x514x514.Slices ![0, 0, 0, 1] S16x3x512x512
  slices_S16x1x514x514_S16x1x512x512_0_0_0_1 : S16x1x514x514.Slices ![0, 0, 0, 1] S16x1x512x512
  slices_S16x3x514x514_S16x3x512x512_0_0_0_2 : S16x3x514x514.Slices ![0, 0, 0, 2] S16x3x512x512
  slices_S16x1x514x514_S16x1x512x512_0_0_0_2 : S16x1x514x514.Slices ![0, 0, 0, 2] S16x1x512x512
  slices_S16x3x514x514_S16x3x512x512_0_0_1_0 : S16x3x514x514.Slices ![0, 0, 1, 0] S16x3x512x512
  slices_S16x1x514x514_S16x1x512x512_0_0_1_0 : S16x1x514x514.Slices ![0, 0, 1, 0] S16x1x512x512
  slices_S16x3x514x514_S16x3x512x512_0_0_1_1 : S16x3x514x514.Slices ![0, 0, 1, 1] S16x3x512x512
  slices_S16x1x514x514_S16x1x512x512_0_0_1_1 : S16x1x514x514.Slices ![0, 0, 1, 1] S16x1x512x512
  slices_S16x3x514x514_S16x3x512x512_0_0_1_2 : S16x3x514x514.Slices ![0, 0, 1, 2] S16x3x512x512
  slices_S16x1x514x514_S16x1x512x512_0_0_1_2 : S16x1x514x514.Slices ![0, 0, 1, 2] S16x1x512x512
  slices_S16x3x514x514_S16x3x512x512_0_0_2_0 : S16x3x514x514.Slices ![0, 0, 2, 0] S16x3x512x512
  slices_S16x1x514x514_S16x1x512x512_0_0_2_0 : S16x1x514x514.Slices ![0, 0, 2, 0] S16x1x512x512
  slices_S16x3x514x514_S16x3x512x512_0_0_2_1 : S16x3x514x514.Slices ![0, 0, 2, 1] S16x3x512x512
  slices_S16x1x514x514_S16x1x512x512_0_0_2_1 : S16x1x514x514.Slices ![0, 0, 2, 1] S16x1x512x512
  slices_S16x3x514x514_S16x3x512x512_0_0_2_2 : S16x3x514x514.Slices ![0, 0, 2, 2] S16x3x512x512
  slices_S16x1x514x514_S16x1x512x512_0_0_2_2 : S16x1x514x514.Slices ![0, 0, 2, 2] S16x1x512x512

variable [Facts₀]

class Facts : Prop extends Facts₀ where

variable [Facts]
-- ==== Proof.StencilSpec.lean ====
/-
  The alpha-weighted 3×3 stencil, as one function of the zero-padded image.

  Write `P` for the padded image, of shape [16, 4, 514, 514]: four channels (three colours and, last, the
  alpha channel), each plane carrying a one-pixel border.  The output pixel `(b, ch, h, w)`, `ch < 3`, is

      ((((((((( 0 + T 0 0) + T 0 1) + T 0 2) + T 1 0) + T 1 1) + T 1 2) + T 2 0) + T 2 1) + T 2 2),
      T di dj = P[b, ch, h + di, w + dj] · P[b, 3, h + di, w + dj],

  the nine taps added in row-major order of `(di, dj)`, starting from zero.  Nothing is assumed of the
  element type beyond its addition, its multiplication and the zero word, so the same text serves every
  reading of the floats; no law of arithmetic is used anywhere: the two programs that are compared against
  this function add the same nine products in the same order.
-/
import Idealize.ShloMosaic.PureOps
import Idealize.ShloMosaic.Lib.ValueIdx

noncomputable section

namespace Cert.Stencil

open Idealize.ShloMosaic

/-- The padded image: 16 images of 4 channels of 514 × 514 pixels. -/
abbrev Padded : Shape := ⟨4, ![16, 4, 514, 514]⟩
/-- The result: 16 images of 3 colour channels of 512 × 512 pixels. -/
abbrev Image : Shape := ⟨4, ![16, 3, 512, 512]⟩

variable {F : FTy → Type} [FloatOps F]

/-- Where tap `(di, dj)` of output pixel `i = (b, ch, h, w)` reads its colour sample: `(b, ch, h + di, w + dj)`. -/
abbrev colourAt (di dj : Nat) (hdi : di < 3) (hdj : dj < 3) (i : Image.Idx) : Padded.Idx := fun a => match a with
  | ⟨0, _⟩ => ⟨(i 0).val, (i 0).isLt⟩
  | ⟨1, _⟩ => ⟨(i 1).val, by have h : (i 1).val < 3 := (i 1).isLt; show (i 1).val < 4; omega⟩
  | ⟨2, _⟩ => ⟨(i 2).val + di, by have h : (i 2).val < 512 := (i 2).isLt; show (i 2).val + di < 514; omega⟩
  | ⟨3, _⟩ => ⟨(i 3).val + dj, by have h : (i 3).val < 512 := (i 3).isLt; show (i 3).val + dj < 514; omega⟩

/-- Where the same tap reads its weight: the alpha channel at the same place, `(b, 3, h + di, w + dj)`. -/
abbrev alphaAt (di dj : Nat) (hdi : di < 3) (hdj : dj < 3) (i : Image.Idx) : Padded.Idx := fun a => match a with
  | ⟨0, _⟩ => ⟨(i 0).val, (i 0).isLt⟩
  | ⟨1, _⟩ => ⟨3, by show 3 < 4; omega⟩
  | ⟨2, _⟩ => ⟨(i 2).val + di, by have h : (i 2).val < 512 := (i 2).isLt; show (i 2).val + di < 514; omega⟩
  | ⟨3, _⟩ => ⟨(i 3).val + dj, by have h : (i 3).val < 512 := (i 3).isLt; show (i 3).val + dj < 514; omega⟩

/-- One tap: the colour sample times its alpha weight. -/
def tap (P : Vec F Padded .f32) (di dj : Nat) (hdi : di < 3) (hdj : dj < 3) (i : Image.Idx) : F .f32 :=
  FloatOps.mulf (P (colourAt di dj hdi hdj i)) (P (alphaAt di dj hdi hdj i))

/-- The stencil: zero, then the nine taps added one after the other, rows of the window first. -/
def conv (P : Vec F Padded .f32) : Vec F Image .f32 := fun i =>
  FloatOps.addf (FloatOps.addf (FloatOps.addf (FloatOps.addf (FloatOps.addf (FloatOps.addf (FloatOps.addf (FloatOps.addf (FloatOps.addf
    (FloatOps.ofBits .f32 0x00000000#32)
    (tap P 0 0 (by decide) (by decide) i)) (tap P 0 1 (by decide) (by decide) i)) (tap P 0 2 (by decide) (by decide) i))
    (tap P 1 0 (by decide) (by decide) i)) (tap P 1 1 (by decide) (by decide) i)) (tap P 1 2 (by decide) (by decide) i))
    (tap P 2 0 (by decide) (by decide) i)) (tap P 2 1 (by decide) (by decide) i)) (tap P 2 2 (by decide) (by decide) i)

/-- Two such nine-term sums are equal when they start from the same value and agree tap by tap (the order and
    the grouping of the additions being the same, nothing else is needed). -/
theorem sum9_congr (z : F .f32) {a0 a1 a2 a3 a4 a5 a6 a7 a8 b0 b1 b2 b3 b4 b5 b6 b7 b8 : F .f32}
    (h0 : a0 = b0) (h1 : a1 = b1) (h2 : a2 = b2) (h3 : a3 = b3) (h4 : a4 = b4) (h5 : a5 = b5) (h6 : a6 = b6)
    (h7 : a7 = b7) (h8 : a8 = b8) :
    FloatOps.addf (FloatOps.addf (FloatOps.addf (FloatOps.addf (FloatOps.addf (FloatOps.addf (FloatOps.addf (FloatOps.addf (FloatOps.addf
      z a0) a1) a2) a3) a4) a5) a6) a7) a8
    = FloatOps.addf (FloatOps.addf (FloatOps.addf (FloatOps.addf (FloatOps.addf (FloatOps.addf (FloatOps.addf (FloatOps.addf (FloatOps.addf
      z b0) b1) b2) b3) b4) b5) b6) b7) b8 := by
  rw [h0, h1, h2, h3, h4, h5, h6, h7, h8]

end Cert.Stencil

end
-- ==== Proof.KernelStencil.lean ====
/-
  The kernel's side of the bridge: after its run the result array holds the alpha-weighted 3×3 stencil
  (`Cert.Stencil.conv`) of the padded array the pallas region was entered with, and that array is the host's
  zero-padding of the argument.

  The grid has one point per image of the batch.  Point `t` stages padded image `t` whole ([1, 4, 514, 514]) and
  writes result image `t` whole ([1, 3, 512, 512]).  Its body loads, for each of the nine taps `(di, dj)`, the
  [1, 3, 512, 512] window of the staged image at offset `(0, 0, di, dj)` (the colours) and the [1, 1, 512, 512]
  window at offset `(0, 3, di, dj)` (alpha), broadcasts alpha over the three colour channels, multiplies, and
  adds the nine products in order onto zero.  Read at an index of the block, each load is the padded array at
  `(t, ch, h + di, w + dj)`, respectively `(t, 3, h + di, w + dj)`: these are the stencil's taps at the array index
  `(t, ch, h, w)` the block index sits at.  The sixteen blocks tile the result array, so the array is the stencil.
-/
import proofs.«171880_j89258010346015_1_alg».proof.Proof.Gen.KernelIdeal.Value
import proofs.«171880_j89258010346015_1_alg».proof.Proof.StencilSpec
import Idealize.ShloMosaic.Lib.StableHlo.Run

noncomputable section

namespace Cert.KernelIdeal.Stencil

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The two index maps over the grid: point `t` stages padded image `t` whole and writes result image `t` whole
    (every block index but the leading one is zero; decided over the 16 points). -/
theorem idx_facts : ∀ t : Fin cfg0.N,
    win0_0.index t (0 : Fin 4) = win0_1.index t (0 : Fin 4) ∧ win0_1.index t (0 : Fin 4) < 16
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0 :=
  (by decide +kernel : ∀ t : Fin grid0.N, _)

/-- A colour load of the body, read at the block index `q` that sits under output index `j` of the block: the
    window of the staged image shifted by `(di, dj)` holds, there, the padded array at `(t, ch, h + di, w + dj)`. -/
theorem colour_leaf (c : Dev nD) (t : Fin cfg0.N) (di dj : Nat) (hdi : di < 3) (hdj : dj < 3)
    (inb : ∀ a, (![0, 0, di, dj] : Fin 4 → Nat) a + S1x3x512x512.size a ≤ S1x4x514x514.size a)
    (q j : S1x3x512x512.Idx) (hq0 : (q 0).val = 0) (hq : (q 1).val = (j 1).val)
    (hq2 : (q 2).val = (j 2).val) (hq3 : (q 3).val = (j 3).val) :
    View.ld (iblk m c 0 t) (Rect.unit (s := S1x4x514x514) ![0, 0, di, dj] S1x3x512x512.size inb) q
      = V m c main_v0 (Cert.Stencil.colourAt di dj hdi hdj (((cfg0.win 1).blk t).view.emb j)) := by
  obtain ⟨e0, e1, e2, e3, e4, e5, e6, e7⟩ := idx_facts t
  show V m c main_v0 (((cfg0.win 0).blk t).view.emb ((Rect.unit (s := S1x4x514x514) ![0, 0, di, dj] S1x3x512x512.size inb).idx q)) = _
  congr 1
  funext a; apply Fin.ext
  match a with
  | ⟨0, _⟩ =>
    show win0_0.index t (0 : Fin 4) * 1 + 1 * (0 + 1 * (q 0).val) = win0_1.index t (0 : Fin 4) * 1 + 1 * (j 0).val
    have h := hq0; have hj : (j 0).val < 1 := (j 0).isLt; omega
  | ⟨1, _⟩ =>
    show win0_0.index t (1 : Fin 4) * 4 + 1 * (0 + 1 * (q 1).val) = win0_1.index t (1 : Fin 4) * 3 + 1 * (j 1).val
    have h := hq; omega
  | ⟨2, _⟩ =>
    show win0_0.index t (2 : Fin 4) * 514 + 1 * (di + 1 * (q 2).val) = win0_1.index t (2 : Fin 4) * 512 + 1 * (j 2).val + di
    have h := hq2; omega
  | ⟨3, _⟩ =>
    show win0_0.index t (3 : Fin 4) * 514 + 1 * (dj + 1 * (q 3).val) = win0_1.index t (3 : Fin 4) * 512 + 1 * (j 3).val + dj
    have h := hq3; omega

/-- An alpha load of the body, likewise: the one-channel window at channel 3 shifted by `(di, dj)` holds the
    padded array at `(t, 3, h + di, w + dj)`, whatever the output channel. -/
theorem alpha_leaf (c : Dev nD) (t : Fin cfg0.N) (di dj : Nat) (hdi : di < 3) (hdj : dj < 3)
    (inb : ∀ a, (![0, 3, di, dj] : Fin 4 → Nat) a + S1x1x512x512.size a ≤ S1x4x514x514.size a)
    (q : S1x1x512x512.Idx) (j : S1x3x512x512.Idx) (hq0 : (q 0).val = 0)
    (hq2 : (q 2).val = (j 2).val) (hq3 : (q 3).val = (j 3).val) :
    View.ld (iblk m c 0 t) (Rect.unit (s := S1x4x514x514) ![0, 3, di, dj] S1x1x512x512.size inb) q
      = V m c main_v0 (Cert.Stencil.alphaAt di dj hdi hdj (((cfg0.win 1).blk t).view.emb j)) := by
  obtain ⟨e0, e1, e2, e3, e4, e5, e6, e7⟩ := idx_facts t
  show V m c main_v0 (((cfg0.win 0).blk t).view.emb ((Rect.unit (s := S1x4x514x514) ![0, 3, di, dj] S1x1x512x512.size inb).idx q)) = _
  congr 1
  funext a; apply Fin.ext
  match a with
  | ⟨0, _⟩ =>
    show win0_0.index t (0 : Fin 4) * 1 + 1 * (0 + 1 * (q 0).val) = win0_1.index t (0 : Fin 4) * 1 + 1 * (j 0).val
    have h := hq0; have hj : (j 0).val < 1 := (j 0).isLt; omega
  | ⟨1, _⟩ =>
    show win0_0.index t (1 : Fin 4) * 4 + 1 * (3 + 1 * (q 1).val) = 3
    have h : (q 1).val < 1 := (q 1).isLt; omega
  | ⟨2, _⟩ =>
    show win0_0.index t (2 : Fin 4) * 514 + 1 * (di + 1 * (q 2).val) = win0_1.index t (2 : Fin 4) * 512 + 1 * (j 2).val + di
    have h := hq2; omega
  | ⟨3, _⟩ =>
    show win0_0.index t (3 : Fin 4) * 514 + 1 * (dj + 1 * (q 3).val) = win0_1.index t (3 : Fin 4) * 512 + 1 * (j 3).val + dj
    have h := hq3; omega

/-- What the body leaves in the output block, index by index: the nine products of the block's shifted colour and
    alpha windows, added in order (the generated reading of the one store's payload). -/
theorem out_apply (x0 : Vec F S1x4x514x514 .f32) (y : S1x3x512x512.Idx) :
    out0_1 x0 y = Value.E1 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9) (View.ld x0 r0_10) (View.ld x0 r0_11) (View.ld x0 r0_12) (View.ld x0 r0_13) (View.ld x0 r0_14) (View.ld x0 r0_15) (View.ld x0 r0_16) (View.ld x0 r0_17) y := by
  unfold out0_1
  exact Value.canon1_eq _ _ _ _ _ _ _ _ _ _ _ _ _ _ _ _ _ _ y

/-- WHAT POINT `t` WRITES BACK is block `t` of the stencil of the padded array as the region finds it. -/
theorem flushed_eq (c : Dev nD) (t : Fin cfg0.N) :
    (dats m 0 c).flushed 1 t = ((cfg0.win 1).blk t).view.read (Elt F) (Cert.Stencil.conv (V m c main_v0)) := by
  rw [Value.flushed1]
  funext j
  show out0_1 (iblk m c 0 t) j = Cert.Stencil.conv (V m c main_v0) (((cfg0.win 1).blk t).view.emb j)
  refine (out_apply (iblk m c 0 t) j).trans ?_
  unfold Cert.Stencil.conv Cert.Stencil.tap
  exact Cert.Stencil.sum9_congr _
    (congrArg₂ FloatOps.mulf
      (colour_leaf m c t 0 0 (by decide) (by decide) _ (Value.ix1_0 j) j rfl rfl rfl rfl)
      (alpha_leaf m c t 0 0 (by decide) (by decide) _ (Value.ix1_1 j) j rfl rfl rfl))
    (congrArg₂ FloatOps.mulf
      (colour_leaf m c t 0 1 (by decide) (by decide) _ (Value.ix1_2 j) j rfl rfl rfl rfl)
      (alpha_leaf m c t 0 1 (by decide) (by decide) _ (Value.ix1_3 j) j rfl rfl rfl))
    (congrArg₂ FloatOps.mulf
      (colour_leaf m c t 0 2 (by decide) (by decide) _ (Value.ix1_4 j) j rfl rfl rfl rfl)
      (alpha_leaf m c t 0 2 (by decide) (by decide) _ (Value.ix1_5 j) j rfl rfl rfl))
    (congrArg₂ FloatOps.mulf
      (colour_leaf m c t 1 0 (by decide) (by decide) _ (Value.ix1_6 j) j rfl rfl rfl rfl)
      (alpha_leaf m c t 1 0 (by decide) (by decide) _ (Value.ix1_7 j) j rfl rfl rfl))
    (congrArg₂ FloatOps.mulf
      (colour_leaf m c t 1 1 (by decide) (by decide) _ (Value.ix1_8 j) j rfl rfl rfl rfl)
      (alpha_leaf m c t 1 1 (by decide) (by decide) _ (Value.ix1_9 j) j rfl rfl rfl))
    (congrArg₂ FloatOps.mulf
      (colour_leaf m c t 1 2 (by decide) (by decide) _ (Value.ix1_10 j) j rfl rfl rfl rfl)
      (alpha_leaf m c t 1 2 (by decide) (by decide) _ (Value.ix1_11 j) j rfl rfl rfl))
    (congrArg₂ FloatOps.mulf
      (colour_leaf m c t 2 0 (by decide) (by decide) _ (Value.ix1_12 j) j rfl rfl rfl rfl)
      (alpha_leaf m c t 2 0 (by decide) (by decide) _ (Value.ix1_13 j) j rfl rfl rfl))
    (congrArg₂ FloatOps.mulf
      (colour_leaf m c t 2 1 (by decide) (by decide) _ (Value.ix1_14 j) j rfl rfl rfl rfl)
      (alpha_leaf m c t 2 1 (by decide) (by decide) _ (Value.ix1_15 j) j rfl rfl rfl))
    (congrArg₂ FloatOps.mulf
      (colour_leaf m c t 2 2 (by decide) (by decide) _ (Value.ix1_16 j) j rfl rfl rfl rfl)
      (alpha_leaf m c t 2 2 (by decide) (by decide) _ (Value.ix1_17 j) j rfl rfl rfl))

/-- An index of the result array is in point `t`'s block iff each coordinate is in the block's range on its axis. -/
theorem mem_blk (t : Fin cfg0.N) (i : S16x3x512x512.Idx) :
    i ∈ ((cfg0.win 1).blk t).view.set ↔ ∀ a : Fin 4, win0_1.index t a * S1x3x512x512.size a ≤ (i a).val ∧ (i a).val < win0_1.index t a * S1x3x512x512.size a + S1x3x512x512.size a := by
  show i ∈ ((View.whole main_v1).slice (win0_1.rect t)).set ↔ _
  rw [View.set_slice_whole, Rect.mem_set_unit]
  exact Iff.rfl

/-- Every image of the batch is some point's (decided over the grid). -/
theorem idx_onto : ∀ b : Fin 16, ∃ t : Fin cfg0.N, win0_1.index t (0 : Fin 4) = b.val :=
  (by decide +kernel : ∀ b : Fin 16, ∃ t : Fin grid0.N, win0_1.index t (0 : Fin 4) = b.val)

/-- The sixteen blocks cover the result array: pixel `(b, ch, h, w)` lies in the block of the point that handles image `b`. -/
theorem cover (i : S16x3x512x512.Idx) :
    ∃ t : Fin cfg0.N, (cfg0.win 1).flush t = true ∧ i ∈ ((cfg0.win 1).blk t).view.set := by
  have hi0 : (i 0).val < 16 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩
  have ht' : win0_1.index t (0 : Fin 4) = (i 0).val := ht
  obtain ⟨e0, e1, e2, e3, e4, e5, e6, e7⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- THE RESULT ARRAY after the run is the stencil of the padded array the region was entered with. -/
theorem final (c : Dev nD) : (dats m 0 c).arrAt 1 cfg0.N = Cert.Stencil.conv (V m c main_v0) :=
  (dats m 0 c).arrAt_eq_of_cover 1 (Cert.Stencil.conv (V m c main_v0)) (fun t _ => flushed_eq m c t) cover

/-- The padded array the region is entered with is the host's zero-padding of the argument: one pixel of
    `float(0)` on each side of the two image axes. -/
theorem padded_eq (c : Dev nD) : (V m c main_v0 : S16x4x514x514.Idx → Elt F .f32) =
    pad S16x4x514x514 ![0, 0, 1, 1] ![0, 0, 1, 1] ![0, 0, 0, 0] (m ((c : Thread nD τ).loc main_arg0))
      (sitofp .f32 (constantI S_ 32 0#32)) pads_S16x4x512x512_S16x4x514x514_000_000_110_110 h_S_ := by
  dsimp only [V]
  simp only [hostOps0, hostOps0_1, List.flatten_cons, List.flatten_nil, List.append_nil, List.cons_append, List.nil_append]
  after_results; rfl

/-- The kernel's run, read: the result array at the stencil of the padded argument, the argument unchanged. -/
theorem run : θ_run defs (onTc (τ := τ) (main (F := F))) ⟨m, fun _ => 0, ρ⟩ fun r => ∀ c : Dev nD,
      r.2.mem ((c : Thread nD τ).loc main_v1) = Cert.Stencil.conv (V m c main_v0)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Stencil

end
-- ==== Proof.ReferenceStencil.lean ====
/-
  The reference's side of the bridge: its result is the alpha-weighted 3×3 stencil (`Cert.Stencil.conv`) of
  its own zero-padded array.

  The reference pads the argument, cuts the padded array into its three colour channels and its alpha channel,
  and then, for each tap `(di, dj)` in row-major order, slices the [16, 3, 512, 512] colour window and the
  [16, 1, 512, 512] alpha window at offset `(di, dj)`, broadcasts alpha over the colour channels, multiplies,
  and adds the product onto the running sum, which starts as the zero array.  Composing the slices' index maps,
  output pixel `(b, ch, h, w)` reads the padded array at `(b, ch, h + di, w + dj)` and at `(b, 3, h + di, w + dj)`.
-/
import proofs.«171880_j89258010346015_1_alg».proof.Proof.Gen.ReferenceIdeal.Read
import proofs.«171880_j89258010346015_1_alg».proof.Proof.StencilSpec

noncomputable section

namespace Cert.ReferenceIdeal.Stencil

open Cert.ReferenceIdeal Cert.ReferenceIdeal.Read Idealize.ShloMosaic Idealize.ShloMosaic.TcCoe Idealize.SL.Sem

variable {F : FTy → Type} [FloatOps F]

/-- The reference's result, read one operation at a time, is the stencil of its padded array: each of its nine
    colour slices, and each alpha slice broadcast over the three colour channels, reads the padded array where the
    tap says; the products are added in the taps' order onto the zero array. -/
theorem result_eq (x0 : (⟨S16x4x512x512, .f32⟩ : BufTy).Contents (Elt F)) :
    val_main_v48 (F := F) x0 = Cert.Stencil.conv (val_main_v0 (F := F) x0) := by
  funext i
  simp only [val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_cst_apply]
  have hc0 : idx_main_v1 (idx_main_v4 i) = Cert.Stencil.colourAt 0 0 (by decide) (by decide) i := by
    funext a; apply Fin.ext
    match a with
    | ⟨0, _⟩ => rfl
    | ⟨1, _⟩ => rfl
    | ⟨2, _⟩ => show (i 2).val = (i 2).val + 0; omega
    | ⟨3, _⟩ => show (i 3).val = (i 3).val + 0; omega
  have ha0 : idx_main_v2 (idx_main_v5 (idx_main_v6 i)) = Cert.Stencil.alphaAt 0 0 (by decide) (by decide) i := by
    funext a; apply Fin.ext
    match a with
    | ⟨0, _⟩ => rfl
    | ⟨1, _⟩ => rfl
    | ⟨2, _⟩ => show (i 2).val = (i 2).val + 0; omega
    | ⟨3, _⟩ => show (i 3).val = (i 3).val + 0; omega
  have hc1 : idx_main_v1 (idx_main_v9 i) = Cert.Stencil.colourAt 0 1 (by decide) (by decide) i := by
    funext a; apply Fin.ext
    match a with
    | ⟨0, _⟩ => rfl
    | ⟨1, _⟩ => rfl
    | ⟨2, _⟩ => show (i 2).val = (i 2).val + 0; omega
    | ⟨3, _⟩ => show 1 + (i 3).val = (i 3).val + 1; omega
  have ha1 : idx_main_v2 (idx_main_v10 (idx_main_v11 i)) = Cert.Stencil.alphaAt 0 1 (by decide) (by decide) i := by
    funext a; apply Fin.ext
    match a with
    | ⟨0, _⟩ => rfl
    | ⟨1, _⟩ => rfl
    | ⟨2, _⟩ => show (i 2).val = (i 2).val + 0; omega
    | ⟨3, _⟩ => show 1 + (i 3).val = (i 3).val + 1; omega
  have hc2 : idx_main_v1 (idx_main_v14 i) = Cert.Stencil.colourAt 0 2 (by decide) (by decide) i := by
    funext a; apply Fin.ext
    match a with
    | ⟨0, _⟩ => rfl
    | ⟨1, _⟩ => rfl
    | ⟨2, _⟩ => show (i 2).val = (i 2).val + 0; omega
    | ⟨3, _⟩ => show 2 + (i 3).val = (i 3).val + 2; omega
  have ha2 : idx_main_v2 (idx_main_v15 (idx_main_v16 i)) = Cert.Stencil.alphaAt 0 2 (by decide) (by decide) i := by
    funext a; apply Fin.ext
    match a with
    | ⟨0, _⟩ => rfl
    | ⟨1, _⟩ => rfl
    | ⟨2, _⟩ => show (i 2).val = (i 2).val + 0; omega
    | ⟨3, _⟩ => show 2 + (i 3).val = (i 3).val + 2; omega
  have hc3 : idx_main_v1 (idx_main_v19 i) = Cert.Stencil.colourAt 1 0 (by decide) (by decide) i := by
    funext a; apply Fin.ext
    match a with
    | ⟨0, _⟩ => rfl
    | ⟨1, _⟩ => rfl
    | ⟨2, _⟩ => show 1 + (i 2).val = (i 2).val + 1; omega
    | ⟨3, _⟩ => show (i 3).val = (i 3).val + 0; omega
  have ha3 : idx_main_v2 (idx_main_v20 (idx_main_v21 i)) = Cert.Stencil.alphaAt 1 0 (by decide) (by decide) i := by
    funext a; apply Fin.ext
    match a with
    | ⟨0, _⟩ => rfl
    | ⟨1, _⟩ => rfl
    | ⟨2, _⟩ => show 1 + (i 2).val = (i 2).val + 1; omega
    | ⟨3, _⟩ => show (i 3).val = (i 3).val + 0; omega
  have hc4 : idx_main_v1 (idx_main_v24 i) = Cert.Stencil.colourAt 1 1 (by decide) (by decide) i := by
    funext a; apply Fin.ext
    match a with
    | ⟨0, _⟩ => rfl
    | ⟨1, _⟩ => rfl
    | ⟨2, _⟩ => show 1 + (i 2).val = (i 2).val + 1; omega
    | ⟨3, _⟩ => show 1 + (i 3).val = (i 3).val + 1; omega
  have ha4 : idx_main_v2 (idx_main_v25 (idx_main_v26 i)) = Cert.Stencil.alphaAt 1 1 (by decide) (by decide) i := by
    funext a; apply Fin.ext
    match a with
    | ⟨0, _⟩ => rfl
    | ⟨1, _⟩ => rfl
    | ⟨2, _⟩ => show 1 + (i 2).val = (i 2).val + 1; omega
    | ⟨3, _⟩ => show 1 + (i 3).val = (i 3).val + 1; omega
  have hc5 : idx_main_v1 (idx_main_v29 i) = Cert.Stencil.colourAt 1 2 (by decide) (by decide) i := by
    funext a; apply Fin.ext
    match a with
    | ⟨0, _⟩ => rfl
    | ⟨1, _⟩ => rfl
    | ⟨2, _⟩ => show 1 + (i 2).val = (i 2).val + 1; omega
    | ⟨3, _⟩ => show 2 + (i 3).val = (i 3).val + 2; omega
  have ha5 : idx_main_v2 (idx_main_v30 (idx_main_v31 i)) = Cert.Stencil.alphaAt 1 2 (by decide) (by decide) i := by
    funext a; apply Fin.ext
    match a with
    | ⟨0, _⟩ => rfl
    | ⟨1, _⟩ => rfl
    | ⟨2, _⟩ => show 1 + (i 2).val = (i 2).val + 1; omega
    | ⟨3, _⟩ => show 2 + (i 3).val = (i 3).val + 2; omega
  have hc6 : idx_main_v1 (idx_main_v34 i) = Cert.Stencil.colourAt 2 0 (by decide) (by decide) i := by
    funext a; apply Fin.ext
    match a with
    | ⟨0, _⟩ => rfl
    | ⟨1, _⟩ => rfl
    | ⟨2, _⟩ => show 2 + (i 2).val = (i 2).val + 2; omega
    | ⟨3, _⟩ => show (i 3).val = (i 3).val + 0; omega
  have ha6 : idx_main_v2 (idx_main_v35 (idx_main_v36 i)) = Cert.Stencil.alphaAt 2 0 (by decide) (by decide) i := by
    funext a; apply Fin.ext
    match a with
    | ⟨0, _⟩ => rfl
    | ⟨1, _⟩ => rfl
    | ⟨2, _⟩ => show 2 + (i 2).val = (i 2).val + 2; omega
    | ⟨3, _⟩ => show (i 3).val = (i 3).val + 0; omega
  have hc7 : idx_main_v1 (idx_main_v39 i) = Cert.Stencil.colourAt 2 1 (by decide) (by decide) i := by
    funext a; apply Fin.ext
    match a with
    | ⟨0, _⟩ => rfl
    | ⟨1, _⟩ => rfl
    | ⟨2, _⟩ => show 2 + (i 2).val = (i 2).val + 2; omega
    | ⟨3, _⟩ => show 1 + (i 3).val = (i 3).val + 1; omega
  have ha7 : idx_main_v2 (idx_main_v40 (idx_main_v41 i)) = Cert.Stencil.alphaAt 2 1 (by decide) (by decide) i := by
    funext a; apply Fin.ext
    match a with
    | ⟨0, _⟩ => rfl
    | ⟨1, _⟩ => rfl
    | ⟨2, _⟩ => show 2 + (i 2).val = (i 2).val + 2; omega
    | ⟨3, _⟩ => show 1 + (i 3).val = (i 3).val + 1; omega
  have hc8 : idx_main_v1 (idx_main_v44 i) = Cert.Stencil.colourAt 2 2 (by decide) (by decide) i := by
    funext a; apply Fin.ext
    match a with
    | ⟨0, _⟩ => rfl
    | ⟨1, _⟩ => rfl
    | ⟨2, _⟩ => show 2 + (i 2).val = (i 2).val + 2; omega
    | ⟨3, _⟩ => show 2 + (i 3).val = (i 3).val + 2; omega
  have ha8 : idx_main_v2 (idx_main_v45 (idx_main_v46 i)) = Cert.Stencil.alphaAt 2 2 (by decide) (by decide) i := by
    funext a; apply Fin.ext
    match a with
    | ⟨0, _⟩ => rfl
    | ⟨1, _⟩ => rfl
    | ⟨2, _⟩ => show 2 + (i 2).val = (i 2).val + 2; omega
    | ⟨3, _⟩ => show 2 + (i 3).val = (i 3).val + 2; omega
  unfold Cert.Stencil.conv Cert.Stencil.tap
  exact Cert.Stencil.sum9_congr _
    (congrArg₂ FloatOps.mulf (congrArg (val_main_v0 (F := F) x0) hc0) (congrArg (val_main_v0 (F := F) x0) ha0))
    (congrArg₂ FloatOps.mulf (congrArg (val_main_v0 (F := F) x0) hc1) (congrArg (val_main_v0 (F := F) x0) ha1))
    (congrArg₂ FloatOps.mulf (congrArg (val_main_v0 (F := F) x0) hc2) (congrArg (val_main_v0 (F := F) x0) ha2))
    (congrArg₂ FloatOps.mulf (congrArg (val_main_v0 (F := F) x0) hc3) (congrArg (val_main_v0 (F := F) x0) ha3))
    (congrArg₂ FloatOps.mulf (congrArg (val_main_v0 (F := F) x0) hc4) (congrArg (val_main_v0 (F := F) x0) ha4))
    (congrArg₂ FloatOps.mulf (congrArg (val_main_v0 (F := F) x0) hc5) (congrArg (val_main_v0 (F := F) x0) ha5))
    (congrArg₂ FloatOps.mulf (congrArg (val_main_v0 (F := F) x0) hc6) (congrArg (val_main_v0 (F := F) x0) ha6))
    (congrArg₂ FloatOps.mulf (congrArg (val_main_v0 (F := F) x0) hc7) (congrArg (val_main_v0 (F := F) x0) ha7))
    (congrArg₂ FloatOps.mulf (congrArg (val_main_v0 (F := F) x0) hc8) (congrArg (val_main_v0 (F := F) x0) ha8))

end Cert.ReferenceIdeal.Stencil

end
-- ==== Proof.lean ====
/- The certificate of the alpha-weighted 3×3 convolution: a Pallas kernel that, per image of the batch, adds the
   nine shifted products colour · alpha of the zero-padded RGBA image, against the plain jnp reference that does the
   same over the whole batch with slices.

   At the ideal instance both programs compute ONE function of the argument, index by index (Proof/StencilSpec.lean):
       out[b, ch, h, w] = ((((((((( 0 + T 0 0) + T 0 1) + T 0 2) + T 1 0) + T 1 1) + T 1 2) + T 2 0) + T 2 1) + T 2 2),
       T di dj = P[b, ch, h + di, w + dj] · P[b, 3, h + di, w + dj],      P = the argument padded with one pixel of 0,
   the same nine products added in the same order from the same zero, so no law of the extended reals is needed
   and the precondition (finite inputs) is never opened.  Proof/KernelStencil.lean reads the kernel's run as that
   function (block by block, the sixteen blocks tiling the result), Proof/ReferenceStencil.lean the reference's.
   Both programs build the padded array by the same host operations (`pad` by `float(int 0)`), so the two padded
   arrays are one term of arguments that agree.  The three frames are the generated frame runs; the idealization
   rewrote nothing, so `preserves` is `True`. -/
import proofs.«171880_j89258010346015_1_alg».proof.Defs
import proofs.«171880_j89258010346015_1_alg».proof.Proof.Gen.Kernel
import proofs.«171880_j89258010346015_1_alg».proof.Proof.Gen.Kernel.Skeleton
import proofs.«171880_j89258010346015_1_alg».proof.Proof.Gen.Kernel.Launch
import proofs.«171880_j89258010346015_1_alg».proof.Proof.Gen.Kernel.Points
import proofs.«171880_j89258010346015_1_alg».proof.Proof.Gen.Kernel.Frame
import proofs.«171880_j89258010346015_1_alg».proof.Proof.Gen.KernelIdeal
import proofs.«171880_j89258010346015_1_alg».proof.Proof.Gen.KernelIdeal.Skeleton
import proofs.«171880_j89258010346015_1_alg».proof.Proof.Gen.KernelIdeal.Launch
import proofs.«171880_j89258010346015_1_alg».proof.Proof.Gen.KernelIdeal.Points
import proofs.«171880_j89258010346015_1_alg».proof.Proof.Gen.KernelIdeal.Frame
import proofs.«171880_j89258010346015_1_alg».proof.Proof.Gen.ReferenceIdeal
import proofs.«171880_j89258010346015_1_alg».proof.Proof.Gen.Pre_finite_inputs
import proofs.«171880_j89258010346015_1_alg».proof.Proof.Gen.KernelIdeal.Value
import proofs.«171880_j89258010346015_1_alg».proof.Proof.Gen.ReferenceIdeal.Run
import proofs.«171880_j89258010346015_1_alg».proof.Proof.Gen.ReferenceIdeal.Read
import proofs.«171880_j89258010346015_1_alg».proof.Proof.KernelStencil
import proofs.«171880_j89258010346015_1_alg».proof.Proof.ReferenceStencil
import Idealize.ShloMosaic.Adequacy
import Idealize.ShloMosaic.Init

noncomputable section

namespace Cert.Proof

open Idealize.ShloMosaic Idealize.SL.Sem Cert.Kernel

/-- The word-level kernel runs and leaves its argument as it was: the generated frame. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its argument as it was: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the stencil of the zero-padded argument in their result
    array: the kernel by its run read block by block, the reference by its run read operation by operation; the
    two padded arrays are the same `pad` of the same argument by the same `float(0)`. -/
theorem algebraic : Cert.algebraic_KernelIdeal_ReferenceIdeal := by
  intro m ρ m' ρ' _ hagree
  refine ⟨fun c => Cert.Stencil.conv (Cert.KernelIdeal.Gen.V m c Cert.KernelIdeal.main_v0),
    Cert.KernelIdeal.Stencil.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.Stencil.result_eq]
  show Cert.Stencil.conv _ = Cert.Stencil.conv (Cert.KernelIdeal.Gen.V m c Cert.KernelIdeal.main_v0)
  rw [Cert.KernelIdeal.Stencil.padded_eq m c, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
